-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1000 : Shape := ⟨2, ![262144, 1000]⟩
abbrev S262144 : Shape := ⟨1, ![262144]⟩
abbrev S_ : Shape := ⟨0, ![]⟩

class Facts : Prop where
  bcast_S_S262144x1000 : S_.BroadcastsInDim S262144x1000 (![] : Fin 0 → Fin S262144x1000.rank)
  reducesTo_S262144x1000_S_d0_1 : S262144x1000.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1000 .f32) (main_arg1 : IVec S262144 32) : IVec S_ 1 :=
  let main_v0 : FVec F S262144x1000 .f32 := Host.absf main_arg0
  let main_cst : FVec F S_ .f32 := constant S_ .f32 0x7F800000#32
  let main_v1 : FVec F S262144x1000 .f32 := broadcastInDim S262144x1000 ![] bcast_S_S262144x1000 main_cst
  let main_v2 : IVec S262144x1000 1 := cmpf .olt main_v0 main_v1
  let main_c : IVec S_ 1 := constantI S_ 1 1#1
  let main_v3 : IVec S_ 1 := (fun x v => Host.reduce IntOp.andi x v reducesTo_S262144x1000_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1000#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x1000 : Shape := ⟨2, ![262144, 1000]⟩
abbrev S262144 : Shape := ⟨1, ![262144]⟩
abbrev S262144x1 : Shape := ⟨2, ![262144, 1]⟩
abbrev S2x8x128 : Shape := ⟨3, ![2, 8, 128]⟩
abbrev S2048x1000 : Shape := ⟨2, ![2048, 1000]⟩
abbrev S2048x1 : Shape := ⟨2, ![2048, 1]⟩
abbrev S1x8x128 : Shape := ⟨3, ![1, 8, 128]⟩
abbrev S8x128 : Shape := ⟨2, ![8, 128]⟩
abbrev S512x1000 : Shape := ⟨2, ![512, 1000]⟩
abbrev S1x1 : Shape := ⟨2, ![1, 1]⟩
abbrev S512x1 : Shape := ⟨2, ![512, 1]⟩
abbrev S512 : Shape := ⟨1, ![512]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S262144x1, .i32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S262144x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_mult1 : BitVec 32 :=
  let c0_i32_1 : BitVec 32 := 0#32
  let c512_i32 : BitVec 32 := 512#32
  let v5 : BitVec 32 := Scalar.muli c0_i32_1 c512_i32
  v5
def k0_off1 (c0_i32_1 : BitVec 32) : Fin 2 → Nat :=
  let c512_i32 : BitVec 32 := 512#32
  let v5 : BitVec 32 := Scalar.muli c0_i32_1 c512_i32
  let v6 : BitVec 32 := v5
  let v7 : Index := Scalar.indexCast v6
  let c0 : Index := 0#32
  ![v7.toNat, 0]
def k0_off2 (c0_i32_1 : BitVec 32) : Fin 2 → Nat :=
  let c512_i32 : BitVec 32 := 512#32
  let v5 : BitVec 32 := Scalar.muli c0_i32_1 c512_i32
  let v6 : BitVec 32 := v5
  let v9 : Index := Scalar.indexCast v6
  let c0_2 : Index := 0#32
  ![v9.toNat, 0]
def k0_mult2 : BitVec 32 :=
  let c1_i32 : BitVec 32 := 1#32
  let c512_i32_10 : BitVec 32 := 512#32
  let v37 : BitVec 32 := Scalar.muli c1_i32 c512_i32_10
  v37
def k0_mult3 : BitVec 32 :=
  let c2_i32 : BitVec 32 := 2#32
  let c512_i32_21 : BitVec 32 := 512#32
  let v69 : BitVec 32 := Scalar.muli c2_i32 c512_i32_21
  v69
def k0_mult4 : BitVec 32 :=
  let c3_i32 : BitVec 32 := 3#32
  let c512_i32_32 : BitVec 32 := 512#32
  let v101 : BitVec 32 := Scalar.muli c3_i32 c512_i32_32
  v101
def k0_cond2 (i : grid0.Coords) : BitVec 1 :=
  let arg1 : BitVec 32 := BitVec.ofNat 32 (i 1).val
  let c63_i32 : BitVec 32 := 63#32
  let v138 : BitVec 1 := Scalar.cmpi .eq arg1 c63_i32
  let v139 : BitVec 32 := Scalar.extui v138
  let c0_i32_47 : BitVec 32 := 0#32
  let v140 : BitVec 1 := Scalar.cmpi .ne v139 c0_i32_47
  v140

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S262144_S262144x1 : S262144.ShapeCasts S262144x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S512x1000_d1_w32 : S512x1000.Iotas .tc 32 [1]
  h_S512x1000 : 0 < S512x1000.numel
  h_S512x1 : 0 < S512x1.numel
  shapeCasts_S512x1_S512x1 : S512x1.ShapeCasts S512x1
  reduces_S512x1000_S512 : S512x1000.Reduces [1] S512
  shapeCasts_S512_S512x1 : S512.ShapeCasts S512x1
  broadcasts_S512x1_S512x1000 : S512x1.Broadcasts S512x1000
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  k0_mult1_dvd : 512 ∣ k0_mult1.toNat
  k0_off1_inb : ∀ (r : Fin 4), ∀ a, (k0_off1 (BitVec.ofNat 32 r.val)) a + S512x1000.size a ≤ S2048x1000.size a
  k0_off2_inb : ∀ (r : Fin 4), ∀ a, (k0_off2 (BitVec.ofNat 32 r.val)) a + S512x1.size a ≤ S2048x1.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S262144x1000.size a
  hwx0_0 : ∀ i : grid0.Coords, EltTy.bits .f32 = 32 ∨ (Rect.block (s := S262144x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x1000 : Shape := ⟨2, ![262144, 1000]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x1000, .f32⟩
  | .hbm, ⟨9, _⟩ => ⟨S262144x1000, .f32⟩
  | .hbm, ⟨10, _⟩ => ⟨S262144x1000, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1, .f32⟩
  | .hbm, ⟨15, _⟩ => ⟨S262144x1000, .f32⟩
  | .hbm, ⟨16, _⟩ => ⟨S262144x1000, .f32⟩
  | .hbm, ⟨17, _⟩ => ⟨S262144x1, .i32⟩
  | .hbm, ⟨18, _⟩ => ⟨S_, .i32⟩
  | .hbm, ⟨19, _⟩ => ⟨S262144x1, .i32⟩
  | .hbm, ⟨20, _⟩ => ⟨S262144x1, .i1⟩
  | .hbm, ⟨21, _⟩ => ⟨S_, .i32⟩
  | .hbm, ⟨22, _⟩ => ⟨S262144x1, .i32⟩
  | .hbm, ⟨23, _⟩ => ⟨S262144x1, .i32⟩
  | .hbm, ⟨24, _⟩ => ⟨S262144x1, .i32⟩
  | .hbm, ⟨25, _⟩ => ⟨S262144x1x1, .i32⟩
  | .hbm, ⟨26, _⟩ => ⟨S1, .i32⟩
  | .hbm, ⟨27, _⟩ => ⟨S_, .i32⟩
  | .hbm, ⟨28, _⟩ => ⟨S262144x1x1, .i32⟩
  | .hbm, ⟨29, _⟩ => ⟨S262144x1x1, .i1⟩
  | .hbm, ⟨30, _⟩ => ⟨S1x1x1, .i32⟩
  | .hbm, ⟨31, _⟩ => ⟨S262144x1x1, .i32⟩
  | .hbm, ⟨32, _⟩ => ⟨S262144x1x1, .i1⟩
  | .hbm, ⟨33, _⟩ => ⟨S262144x1x1, .i1⟩
  | .hbm, ⟨34, _⟩ => ⟨S_, .i1⟩
  | .hbm, ⟨35, _⟩ => ⟨S262144x1, .i1⟩
  | .hbm, ⟨36, _⟩ => ⟨S262144x1, .f32⟩
  | .hbm, ⟨37, _⟩ => ⟨S_, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S262144x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S262144x1000_S262144_d1 : S262144x1000.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1000_0_1 : S262144x1.BroadcastsInDim S262144x1000 (![0, 1] : Fin 2 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  gather_S262144x1000_S262144x1x1_S262144x1_n_1_0_0_1_2_11_wf : GatherDims.WF S262144x1000 S262144x1x1 S262144x1 [] [1] [0] [1] [0] 2 ![1, 1]

variable [Facts₀]

def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.RowLoss.lean ====
/-
  The cross-entropy of one row of logits against a class index, on the extended reals.

  For a row x of n logits write M for its maximum, taken as the fold of max from -∞, and shifted x c = x c - M.
  The log-sum-exp of the shifted row is lse x = log (∑ c, exp (x c - M)).  A kernel that accumulates a loss adds
  lse x - shifted x l for the class l of the row; log_softmax followed by a gather at l yields shifted x l - lse x,
  which is then summed and negated.  When every logit is a real number all of these are real numbers (the row is
  not empty, so M is a real number and the sum of exponentials is a positive real number), and then the negated
  sum of the second terms is the sum of the first terms.  With infinite logits this fails, which is why the
  statement asks for finite inputs.
-/
import proofs.«422560_j42021960024720_3_alg».proof.Proof.LibExtReal

noncomputable section

namespace CrossEntropy

open Idealize.ShloMosaic Cert.ExtReal

variable {n : ℕ}

/-- The maximum of a row, as the fold of `max` from `-∞`. -/
def rowMax (x : Fin n → EReal) : EReal := (Finset.univ : Finset (Fin n)).fold max ⊥ x

/-- The row shifted by its maximum. -/
def shifted (x : Fin n → EReal) (c : Fin n) : EReal := x c - rowMax x

/-- The sum of the exponentials of the shifted row. -/
def sumExp (x : Fin n → EReal) : EReal := ∑ c, Ideal.exp (shifted x c)

/-- The log-sum-exp of the shifted row. -/
def lse (x : Fin n → EReal) : EReal := Ideal.log (sumExp x)

/-- The loss of the row against class `l`: minus the log-probability of `l`. -/
def loss (x : Fin n → EReal) (l : Fin n) : EReal := lse x - shifted x l

/-- The log-probability of class `l`: what log_softmax leaves at column `l`. -/
def picked (x : Fin n → EReal) (l : Fin n) : EReal := shifted x l - lse x

/-- A sum of real numbers, taken in the extended reals, is the real sum. -/
theorem coe_sum {ι : Type} (s : Finset ι) (f : ι → ℝ) : ∑ i ∈ s, ((f i : ℝ) : EReal) = ((∑ i ∈ s, f i : ℝ) : EReal) := by
  classical
  refine Finset.induction_on s ?_ (fun a s ha ih => ?_)
  · rw [Finset.sum_empty, Finset.sum_empty, EReal.coe_zero]
  · rw [Finset.sum_insert ha, Finset.sum_insert ha, ih, EReal.coe_add]

/-- The fold of `max` from `-∞` over a nonempty set of real numbers is a real number. -/
theorem isFin_fold_max {ι : Type} (f : ι → EReal) (s : Finset ι) (hs : s.Nonempty) (h : ∀ i ∈ s, IsFin (f i)) :
    IsFin (s.fold max ⊥ f) := by
  induction hs using Finset.Nonempty.cons_induction with
  | singleton a =>
    rw [Finset.fold_singleton, max_bot_right]
    exact h a (Finset.mem_singleton_self a)
  | cons a s ha hs ih =>
    rw [Finset.fold_cons]
    exact (h a (Finset.mem_cons_self a s)).max (ih fun i hi => h i (Finset.mem_cons.mpr (Or.inr hi)))

theorem isFin_rowMax (hn : 0 < n) (x : Fin n → EReal) (hx : ∀ c, IsFin (x c)) : IsFin (rowMax x) :=
  isFin_fold_max x Finset.univ ⟨⟨0, hn⟩, Finset.mem_univ _⟩ fun c _ => hx c

theorem isFin_shifted (hn : 0 < n) (x : Fin n → EReal) (hx : ∀ c, IsFin (x c)) (c : Fin n) : IsFin (shifted x c) := by
  obtain ⟨a, ha⟩ := hx c
  obtain ⟨b, hb⟩ := isFin_rowMax hn x hx
  exact ⟨a - b, by unfold shifted; rw [ha, hb, EReal.coe_sub]⟩

/-- For a row of real numbers the loss against any class is a real number, and the log-probability is its negative. -/
theorem exists_real (hn : 0 < n) (x : Fin n → EReal) (hx : ∀ c, IsFin (x c)) (l : Fin n) :
    ∃ r : ℝ, loss x l = (r : EReal) ∧ picked x l = ((-r : ℝ) : EReal) := by
  choose r hr using isFin_shifted hn x hx
  have hS : sumExp x = ((∑ c, Real.exp (r c) : ℝ) : EReal) := by
    unfold sumExp
    rw [← coe_sum]
    exact Finset.sum_congr rfl fun c _ => by rw [hr c]; rfl
  have hpos : 0 < ∑ c, Real.exp (r c) :=
    Finset.sum_pos (fun c _ => Real.exp_pos _) ⟨⟨0, hn⟩, Finset.mem_univ _⟩
  have hL : lse x = ((Real.log (∑ c, Real.exp (r c)) : ℝ) : EReal) := by
    unfold lse
    rw [hS]
    show (if (∑ c, Real.exp (r c)) ≤ 0 then (⊥ : EReal) else _) = _
    rw [if_neg (not_le.mpr hpos)]
  refine ⟨Real.log (∑ c, Real.exp (r c)) - r l, ?_, ?_⟩
  · unfold loss; rw [hL, hr l, EReal.coe_sub]
  · unfold picked; rw [hL, hr l, ← EReal.coe_sub]; congr 1; ring

/-- The negated sum of the log-probabilities is the sum of the losses, for rows of real numbers. -/
theorem neg_sum_picked {ι : Type} (s : Finset ι) (hn : 0 < n) (x : ι → Fin n → EReal) (l : ι → Fin n)
    (hx : ∀ i c, IsFin (x i c)) : -(∑ i ∈ s, picked (x i) (l i)) = ∑ i ∈ s, loss (x i) (l i) := by
  choose r hr using fun i => exists_real hn (x i) (hx i) (l i)
  rw [Finset.sum_congr rfl fun i _ => (hr i).2, Finset.sum_congr rfl fun i _ => (hr i).1, coe_sum, coe_sum,
    ← EReal.coe_neg, Finset.sum_neg_distrib, neg_neg]

end CrossEntropy

end
-- ==== Proof.RefPicked.lean ====
/-
  The reference read at an index.

  jnp's reference takes log_softmax of the logits along each row, picks in row i the entry at the row's class index
  (take_along_axis: a negative index wraps once, an index outside [0, 1000) after that reads NaN), sums the picked
  entries, negates the sum and divides by the number of rows.  When every class index lies in [0, 1000) the wrap and the
  bounds test do nothing and the picked entry of row i is `CrossEntropy.picked` of that row at its class: the logit
  shifted by the row's maximum, minus the logarithm of the sum of the exponentials of the shifted row.
-/
import proofs.«422560_j42021960024720_3_alg».proof.Proof.RefRead
import proofs.«422560_j42021960024720_3_alg».proof.Proof.RowLoss
import Idealize.ShloMosaic.Lib.ValueIdx
import Idealize.ShloMosaic.Lib.ValueIdxRank1
import Idealize.ShloMosaic.Lib.StableHlo.Predicate

noncomputable section

namespace Cert.ReferenceIdeal.Picked

open Idealize.ShloMosaic Idealize.ShloMosaic.ValueIdx Cert.ReferenceIdeal Cert.ReferenceIdeal.Gen Cert.ReferenceIdeal.Read

/-! ## log_softmax read at an index -/

/-- The reference's −∞ word reads ⊥. -/
theorem ofBits_neg_inf : Ideal.ofBits .f32 0xFF800000#32 = (⊥ : EReal) := by
  simp [Ideal.ofBits, Ideal.ieee]

/-- The maximum of row i, as the reference takes it (the reduction from −∞ over the columns, then the maximum with −∞
    once more), is the fold of max from −∞ over the row. -/
theorem rowmax_apply (x0 : (⟨S262144x1000, .f32⟩ : BufTy).Contents (Elt Ideal)) (i : Fin 262144) :
    val_main_call0_v2 (F := Ideal) x0 (ix1 i) = CrossEntropy.rowMax (fun c : Fin 1000 => x0 (ix2 i c)) := by
  have hR : S262144x1000.Reduces [1] S262144 := by decide
  rw [val_main_call0_v2_apply, val_main_call0_v1_apply, val_main_call0_cst_0_apply]
  unfold val_main_call0_v0
  have h := Host.reduce_eq_fold_single (α := Ideal .f32) (FloatOps.maximumf (F := Ideal) (φ := .f32)) x0
    (val_main_call0_cst (F := Ideal)) reducesTo_S262144x1000_S262144_d1 hR h_S_ (ix1 i)
  rw [h, val_main_call0_cst_apply]
  show max (Ideal.ofBits .f32 0xFF800000#32)
    ((Finset.univ : Finset (Fin 1000)).fold max (Ideal.ofBits .f32 0xFF800000#32) (x0 ∘ hR.lift (ix1 i))) = _
  rw [ofBits_neg_inf, max_bot_left]
  unfold CrossEntropy.rowMax
  exact congrArg (fun f : Fin 1000 → EReal => (Finset.univ : Finset (Fin 1000)).fold max ⊥ f)
    (funext fun c => congrArg x0 (funext fun a => Fin.ext (by match a with | ⟨0, _⟩ => rfl | ⟨1, _⟩ => rfl)))

/-- The shifted logit: entry (i, c) minus the maximum of row i. -/
theorem shifted_apply (x0 : (⟨S262144x1000, .f32⟩ : BufTy).Contents (Elt Ideal)) (i : Fin 262144) (c : Fin 1000) :
    val_main_call0_v5 (F := Ideal) x0 (ix2 i c) = CrossEntropy.shifted (fun c : Fin 1000 => x0 (ix2 i c)) c := by
  have hi : idx_main_call0_v3 (idx_main_call0_v4 (ix2 i c)) = ix1 i :=
    funext fun a => Fin.ext (by match a with | ⟨0, _⟩ => rfl)
  rw [val_main_call0_v5_apply, val_main_call0_v4_apply, val_main_call0_v3_apply, hi, rowmax_apply]
  rfl

/-- The logarithm of the sum of the exponentials of the shifted row, broadcast along the row. -/
theorem lse_apply (x0 : (⟨S262144x1000, .f32⟩ : BufTy).Contents (Elt Ideal)) (i : Fin 262144) (c : Fin 1000) :
    val_main_call0_v10 (F := Ideal) x0 (ix2 i c) = CrossEntropy.lse (fun c : Fin 1000 => x0 (ix2 i c)) := by
  have hi : idx_main_call0_v8 (idx_main_call0_v10 (ix2 i c)) = ix1 i :=
    funext fun a => Fin.ext (by match a with | ⟨0, _⟩ => rfl)
  have hk : ∀ k : Fin 1000, idx_main_call0_v7 (ix1 i) k = ix2 i k := fun k =>
    funext fun a => Fin.ext (by match a with | ⟨0, _⟩ => rfl | ⟨1, _⟩ => rfl)
  rw [val_main_call0_v10_apply, val_main_call0_v9_apply, val_main_call0_v8_apply, hi, val_main_call0_v7_apply,
    val_main_call0_cst_1_apply]
  unfold CrossEntropy.lse CrossEntropy.sumExp
  rw [Ideal.hostUnary_log_def, Ideal.ofBits_def, Ideal.ofBits_zero_f32, zero_add]
  refine congrArg Ideal.log (Finset.sum_congr rfl fun k _ => ?_)
  rw [val_main_call0_v6_apply, hk k, shifted_apply, Ideal.hostUnary_exp_def]

/-- log_softmax at (i, c): the shifted logit minus the row's log-sum-exp. -/
theorem logp_apply (x0 : (⟨S262144x1000, .f32⟩ : BufTy).Contents (Elt Ideal)) (i : Fin 262144) (c : Fin 1000) :
    val_main_v0 (F := Ideal) x0 (ix2 i c) = CrossEntropy.picked (fun c : Fin 1000 => x0 (ix2 i c)) c := by
  rw [val_main_v0_apply, shifted_apply, lse_apply]
  rfl

/-! ## The class index and its bounds test -/

/-- A fold of "and" from the one-bit word 1 over words that are all 1 is 1. -/
theorem fold_andi_one {ι : Type} (s : Finset ι) (f : ι → BitVec 1) (h : ∀ k, f k = 1#1) :
    s.fold IntOp.andi 1#1 f = 1#1 := by
  induction s using Finset.cons_induction with
  | empty => rfl
  | cons a s ha ih => rw [Finset.fold_cons, ih, h a]; rfl

/-- The class index of row i as take_along_axis reads it: a class below 1000 is not negative, so the wrap by 1000
    leaves it alone. -/
theorem idx_apply (x1 : (⟨S262144, .i32⟩ : BufTy).Contents (Elt Ideal)) (hl : ∀ i : Fin 262144, (x1 (ix1 i)).toNat < 1000)
    (i : Fin 262144) : val_main_call1_v5 (F := Ideal) x1 (ix3 i 0 0) = x1 (ix1 i) := by
  have hi : idx_main_v1 (idx_main_call1_v5 (ix3 i 0 0)) = ix1 i :=
    funext fun a => Fin.ext (by match a with | ⟨0, _⟩ => show ((i.val * 1 + 0) * 1 + 0) / 1 = i.val; omega)
  have h0 : IntOp.cmpi .slt (x1 (ix1 i)) 0#32 = 0#1 := eq_zero_of_ne_one fun h => by
    have h' := (StableHlo.Predicate.slt_iff_toNat (by have := hl i; omega) (by decide)).mp h
    rw [show (0#32 : BitVec 32).toNat = 0 from rfl] at h'
    omega
  rw [val_main_call1_v5_apply, val_main_call1_v4_apply, val_main_call1_v1_apply, val_main_v1_apply, hi,
    val_main_call1_v0_apply, val_main_call1_c_apply, h0, select_zero]

/-- The bounds test 0 ≤ index ≤ 999 holds at every index. -/
theorem v11_one (x1 : (⟨S262144, .i32⟩ : BufTy).Contents (Elt Ideal)) (hl : ∀ i : Fin 262144, (x1 (ix1 i)).toNat < 1000)
    (j3 : S262144x1x1.Idx) : val_main_call1_v11 (F := Ideal) x1 j3 = 1#1 := by
  obtain ⟨a, b, c, rfl⟩ : ∃ (a : Fin 262144) (b c : Fin 1), j3 = ix3 a b c := ⟨j3 0, j3 1, j3 2, eq_ix3 j3⟩
  obtain rfl : b = 0 := Subsingleton.elim _ _
  obtain rfl : c = 0 := Subsingleton.elim _ _
  have hlt := hl a
  rw [val_main_call1_v11_apply, val_main_call1_v7_apply, val_main_call1_v10_apply, idx_apply x1 hl a,
    val_main_call1_v6_apply, val_main_call1_c_2_apply, val_main_call1_v9_apply, val_main_call1_v8_apply,
    val_main_call1_c_1_apply,
    (StableHlo.Predicate.sge_iff_toNat (a := x1 (ix1 a)) (b := 0#32) (by omega) (by decide)).mpr (Nat.zero_le _),
    (StableHlo.Predicate.sle_iff_toNat (a := x1 (ix1 a)) (b := 999#32) (by omega) (by decide)).mpr
      (by rw [show (999#32 : BitVec 32).toNat = 999 from rfl]; omega)]
  rfl

/-- So the reduction of the bounds test over the unit axis is 1 at every row. -/
theorem inb_apply (x1 : (⟨S262144, .i32⟩ : BufTy).Contents (Elt Ideal)) (hl : ∀ i : Fin 262144, (x1 (ix1 i)).toNat < 1000)
    (i : Fin 262144) : val_main_call1_v12 (F := Ideal) x1 (ix2 i 0) = 1#1 := by
  unfold val_main_call1_v12
  have h := Host.reduce_eq_fold (α := BitVec 1) IntOp.andi (val_main_call1_v11 (F := Ideal) x1)
    (val_main_call1_c_3 (F := Ideal)) reducesTo_S262144x1x1_S262144x1_d2 h_S_ (ix2 i 0)
  rw [h, val_main_call1_c_3_apply]
  exact fold_andi_one _ _ (v11_one x1 hl)

/-! ## The gather read at an index -/

abbrev gatherDims := gather_S262144x1000_S262144x1x1_S262144x1_n_1_0_0_1_2_11

/-- THE GATHER READ AT (i, 0): along the batching axis 0 the operand's row is the result's row i; along the collapsed
    axis 1 the column is the start index at (i, 0, 0), read signed and clamped into [0, 999], which for a word whose
    unsigned value is below 1000 is that value. -/
theorem gather_apply {α : Type} (T : S262144x1000.Idx → α) (I : IVec S262144x1x1 32) (i : Fin 262144) (n : Nat)
    (hn : (I (ix3 i 0 0)).toNat = n) (hlt : n < 1000) :
    Host.gather gatherDims T I (ix2 i 0) = T (ix2 i ⟨n, hlt⟩) := by
  unfold Host.gather
  congr 1
  funext a
  refine Fin.ext ?_
  match a with
  | ⟨0, _⟩ =>
    show gatherDims.start (ix2 i 0) I (0 : Fin 2) + gatherDims.batchCoord (ix2 i 0) (0 : Fin 2) + gatherDims.offCoord (ix2 i 0) (0 : Fin 2) = i.val
    rw [GatherDims.start_batching gatherDims _ _ _ (List.mem_singleton.mpr rfl),
      GatherDims.offCoord_eq_zero gatherDims _ _ (fun h => ((GatherDims.mem_sKept gatherDims _).mp h).2 (List.mem_singleton.mpr rfl)),
      Nat.zero_add, Nat.add_zero]
    unfold GatherDims.batchCoord
    rw [dif_pos (show (0 : Fin 2) ∈ gatherDims.operandBatchingDims from List.mem_singleton.mpr rfl)]
    rfl
  | ⟨1, _⟩ =>
    show gatherDims.start (ix2 i 0) I (1 : Fin 2) + gatherDims.batchCoord (ix2 i 0) (1 : Fin 2) + gatherDims.offCoord (ix2 i 0) (1 : Fin 2) = n
    rw [GatherDims.batchCoord_eq_zero gatherDims _ _ (fun h => absurd (List.mem_singleton.mp h) (by decide)),
      GatherDims.offCoord_eq_zero gatherDims _ _ (fun h => ((GatherDims.mem_sKept gatherDims _).mp h).1 (List.mem_singleton.mpr rfl)),
      Nat.add_zero]
    unfold GatherDims.start
    rw [dif_pos (show (1 : Fin 2) ∈ gatherDims.startIndexMap from List.mem_singleton.mpr rfl)]
    have hsi : gatherDims.siIdx (ix2 i 0) ⟨List.idxOf (1 : Fin 2) gatherDims.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi]
    show min (I (ix3 i 0 0)).toInt.toNat (1000 - 1) = n
    rw [StableHlo.Predicate.toInt_eq_toNat_of_lt (by omega), Int.toNat_natCast, hn]
    omega

/-! ## The picked entry and the result -/

/-- The entry take_along_axis picks in row i: the bounds test passes, so it is the gathered log-probability of the
    row's class. -/
theorem picked_apply (x0 : (⟨S262144x1000, .f32⟩ : BufTy).Contents (Elt Ideal)) (x1 : (⟨S262144, .i32⟩ : BufTy).Contents (Elt Ideal))
    (hl : ∀ i : Fin 262144, (x1 (ix1 i)).toNat < 1000) (i : Fin 262144) :
    val_main_v2 (F := Ideal) x0 x1 (ix2 i 0)
      = CrossEntropy.picked (fun c : Fin 1000 => x0 (ix2 i c)) ⟨(x1 (ix1 i)).toNat, hl i⟩ := by
  rw [val_main_v2_apply, inb_apply x1 hl i, select_one]
  unfold val_main_call1_v13
  refine (gather_apply (val_main_v0 (F := Ideal) x0) (val_main_call1_v5 (F := Ideal) x1) i (x1 (ix1 i)).toNat
    (congrArg BitVec.toNat (idx_apply x1 hl i)) (hl i)).trans ?_
  exact logp_apply x0 i _

/-- With every class index in range, the reference's result (at its one index) is the negated sum over the rows of the
    row's log-probability at its class, the sum started from the reference's zero, divided by the reference's
    constant 262144. -/
theorem result_eq (x0 : (⟨S262144x1000, .f32⟩ : BufTy).Contents (Elt Ideal)) (x1 : (⟨S262144, .i32⟩ : BufTy).Contents (Elt Ideal))
    (hl : ∀ i : Fin 262144, (x1 (ix1 i)).toNat < 1000) (j : S_.Idx) :
    val_main_v6 (F := Ideal) x0 x1 j
      = Ideal.div (-(Ideal.ofBits .f32 0x00000000#32
            + ∑ i : Fin 262144, CrossEntropy.picked (fun c : Fin 1000 => x0 (ix2 i c)) ⟨(x1 (ix1 i)).toNat, hl i⟩))
          (Ideal.ofBits .f32 0x48800000#32) := by
  have hsum : ∑ j' : S262144.Idx, val_main_v3 (F := Ideal) x0 x1 j'
      = ∑ i : Fin 262144, CrossEntropy.picked (fun c : Fin 1000 => x0 (ix2 i c)) ⟨(x1 (ix1 i)).toNat, hl i⟩ := by
    refine (Equiv.sum_comp (idxEquiv1 (n := 262144)).symm (fun j' => val_main_v3 (F := Ideal) x0 x1 j')).symm.trans ?_
    refine Finset.sum_congr rfl fun i _ => ?_
    show val_main_v3 (F := Ideal) x0 x1 (ix1 i) = _
    have hi : idx_main_v3 (ix1 i) = ix2 i 0 :=
      funext fun a => Fin.ext (by match a with | ⟨0, _⟩ => show i.val / 1 = i.val; omega | ⟨1, _⟩ => rfl)
    rw [val_main_v3_apply, hi, picked_apply x0 x1 hl i]
  rw [val_main_v6_apply, val_main_v5_apply, val_main_v4_apply, val_main_cst_0_apply, val_main_cst_apply, hsum]
  simp only [Ideal.hostDivf_def, Ideal.hostNegf_def, Ideal.negf_def, Ideal.ofBits_def]

end Cert.ReferenceIdeal.Picked

end
-- ==== Proof.PreRead.lean ====
/-
  What the precondition says about the two inputs.

  The precondition is the conjunction of two tests, each reduced with "and" over the whole array: every logit has
  absolute value below +∞, and every class index l satisfies 0 ≤ l (signed) and l < 1000 (signed).  On the extended
  reals |x| < +∞ says that x is neither infinity, that is, x is a real number; and a 32-bit word that is
  non-negative as a signed number and below 1000 is a natural number below 1000.
-/
import proofs.«422560_j42021960024720_3_alg».proof.Proof.Gen.Pre_finite_inputs
import proofs.«422560_j42021960024720_3_alg».proof.Proof.LibExtReal
import Idealize.ShloMosaic.Lib.ReduceAll
import Idealize.ShloMosaic.Lib.ValueIdx
import Idealize.ShloMosaic.Lib.StableHlo.Predicate
import Idealize.ShloMosaic.PureOps.Ideal.Laws

noncomputable section

namespace Cert.Pre_finite_inputs.Decode

open Idealize.ShloMosaic Idealize.ShloMosaic.ValueIdx Cert.Pre_finite_inputs

/-- An extended real x with max x (-x) below +∞ is a real number: at x = -∞ the maximum is -(-∞) = +∞, at x = +∞ it is
    x itself, and +∞ is not below +∞. -/
theorem isFin_of_abs_lt_top (x : EReal) (h : max x (-x) < ⊤) : Cert.ExtReal.IsFin x := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The 32-bit pattern 0x7F800000 (sign 0, exponent all ones, fraction 0) denotes +∞. -/
theorem ofBits_inf_f32 : Ideal.ofBits .f32 0x7F800000#32 = (⊤ : EReal) := by
  simp [Ideal.ofBits, Ideal.ieee]

/-- The ordered comparison "a < b" of two extended reals gives the bit 1 only when a < b. -/
theorem lt_of_cmp_olt (a b : EReal) (h : Ideal.cmp .olt a b = 1#1) : a < b := by
  have h' : BitVec.ofBool (decide (a < b)) = 1#1 := h
  exact of_decide_eq_true ((StableHlo.Predicate.ofBool_eq_one_iff _).1 h')

/-- A 32-bit word l with 0 ≤ l and l < 1000, both read signed, is below 1000 read as a natural number: a word whose
    signed value is not negative has its signed value equal to its unsigned value. -/
theorem toNat_lt_of_signed (l : BitVec 32) (h0 : IntOp.cmpi .sge l 0#32 = 1#1) (h1 : IntOp.cmpi .slt l 1000#32 = 1#1) :
    l.toNat < 1000 := by
  rw [IntOp.cmpi_sge, show (0#32 : BitVec 32).toInt = 0 from by decide] at h0
  rw [IntOp.cmpi_slt, show (1000#32 : BitVec 32).toInt = 1000 from by decide] at h1
  have e := BitVec.toInt_eq_toNat_cond l
  have hl := l.isLt
  split at e <;> omega

/-- The shape with no axes has exactly one index. -/
theorem subsingleton_S_ : Subsingleton S_.Idx := ⟨fun a b => funext fun d => d.elim0⟩

/-- If the precondition evaluates to true on the extended reals, every logit is a real number and every class
    index, read as a natural number, is below 1000. -/
theorem of_pre [Cert.Pre_finite_inputs.Facts] (x0 : FVec Ideal S262144x1000 .f32) (x1 : IVec S262144 32)
    (h : Cert.Pre_finite_inputs.fn (F := Ideal) x0 x1 = fun _ => 1#1) :
    (∀ (i : Fin 262144) (c : Fin 1000), Cert.ExtReal.IsFin (x0 (ix2 i c)))
      ∧ (∀ i : Fin 262144, (x1 (ix1 i)).toNat < 1000) := by
  haveI : Subsingleton S_.Idx := subsingleton_S_
  -- The value at the one index is the "and" of the two reductions; both are 1.
  have h0 := congrFun h ValueIdx.ix0
  dsimp only [Cert.Pre_finite_inputs.fn] at h0
  obtain ⟨hA, hB⟩ := IntOp.andi_eq_one.1 h0
  clear h0
  refine ⟨fun i c => ?_, fun i => ?_⟩
  · -- An "and" over all (i, c) that is 1 has a 1 at every (i, c): there |x| < +∞.
    have e := Host.reduce_andi_all _ _ _ _ _ hA (ix2 i c)
    have e' : Ideal.cmp .olt (max (x0 (ix2 i c)) (-(x0 (ix2 i c)))) (Ideal.ofBits .f32 0x7F800000#32) = 1#1 := e
    rw [ofBits_inf_f32] at e'
    exact isFin_of_abs_lt_top _ (lt_of_cmp_olt _ _ e')
  · -- An "and" over all i that is 1 has a 1 at every i: there 0 ≤ l and l < 1000, signed.
    have e := Host.reduce_andi_all _ _ _ _ _ hB (ix1 i)
    obtain ⟨e0, e1⟩ := IntOp.andi_eq_one.1 e
    have e0' : IntOp.cmpi .sge (x1 (ix1 i)) 0#32 = 1#1 := e0
    have e1' : IntOp.cmpi .slt (x1 (ix1 i)) 1000#32 = 1#1 := e1
    exact toNat_lt_of_signed _ e0' e1'

end Cert.Pre_finite_inputs.Decode

end
-- ==== Proof.ChunkDef.lean ====
/-
  One chunk of 512 rows: the sum over the chunk's rows of each row's cross-entropy loss.

  The kernel body handles its 2048-row tile as four chunks of 512 rows.  For a chunk x of logits and its column lw of
  class indices it computes, row by row, the maximum M, the shifted row x - M, log (∑ exp (x - M)), and the shifted
  logit at the row's class (a sum over the columns of the shifted row masked by "column = class"); the row's loss is
  the difference, kept only where the class index lies in [0, 1000), and the chunk's total is the sum over the rows.
  The four payloads of the printed body are this one chain applied to the four chunks and added up, which is what
  the four statements after the definition say.
-/
import proofs.«422560_j42021960024720_3_alg».proof.Proof.Gen.KernelIdeal.Skeleton
import Idealize.ShloMosaic.Lib.ValueIdx
import Idealize.ShloMosaic.Lib.Pipeline.Value

noncomputable section

namespace Cert.KernelIdeal.XEnt

open Idealize.ShloMosaic Idealize.ShloMosaic.ValueIdx Cert.KernelIdeal Cert.KernelIdeal.Gen

variable {F : FTy → Type} [FloatOps F]

/-- The column indices 0 … 999 along each row, as the body builds them once. -/
abbrev colIota : IVec S512x1000 32 := iota .tc S512x1000 32 [1] iota_S512x1000_d1_w32

/-- The chunk's chain of operations: from a chunk of logits and its class indices to the chunk's total loss,
    as a [1, 1] vector. -/
def chunkLoss (x : Vec F S512x1000 .f32) (lw : Vec F S512x1 .i32) : FVec F S1x1 .f32 :=
  have v11 : IVec S512x1 32 := shapeCast S512x1 lw shapeCasts_S512x1_S512x1
  have v12 : FVec F S512 .f32 := multiReduction .maximumf [1] S512 x 0xFF800000#32 reduces_S512x1000_S512 (.inl rfl) rfl
  have v13 : FVec F S512x1 .f32 := shapeCast S512x1 v12 shapeCasts_S512_S512x1
  have v14 : FVec F S512x1000 .f32 := broadcastTo S512x1000 v13 broadcasts_S512x1_S512x1000
  have v15 : FVec F S512x1000 .f32 := subf x v14
  have v16 : FVec F S512x1000 .f32 := exp v15
  have v17 : FVec F S512 .f32 := multiReduction .add [1] S512 v16 0x00000000#32 reduces_S512x1000_S512 (.inl rfl) rfl
  have v18 : FVec F S512x1 .f32 := shapeCast S512x1 v17 shapeCasts_S512_S512x1
  have v19 : FVec F S512x1 .f32 := log v18
  have v20 : IVec S512x1 32 := broadcast S512x1 0#32
  have v21 : IVec S512x1 1 := cmpi .sge v11 v20
  have v22 : IVec S512x1 32 := broadcast S512x1 1000#32
  have v23 : IVec S512x1 1 := cmpi .slt v11 v22
  have v24 : IVec S512x1 1 := andi v21 v23
  have v25 : IVec S512x1000 32 := broadcastTo S512x1000 v11 broadcasts_S512x1_S512x1000
  have v26 : IVec S512x1000 1 := cmpi .eq colIota v25
  have cst_6 : F .f32 := Scalar.ofBits .f32 0x00000000#32
  have v27 : FVec F S512x1000 .f32 := broadcast S512x1000 cst_6
  have v28 : FVec F S512x1000 .f32 := select v26 v15 v27
  have v29 : FVec F S512 .f32 := multiReduction .add [1] S512 v28 0x00000000#32 reduces_S512x1000_S512 (.inl rfl) rfl
  have v30 : FVec F S512x1 .f32 := shapeCast S512x1 v29 shapeCasts_S512_S512x1
  have v31 : FVec F S512x1 .f32 := subf v19 v30
  have cst_8 : F .f32 := Scalar.ofBits .f32 0x00000000#32
  have v32 : FVec F S512x1 .f32 := broadcast S512x1 cst_8
  have v33 : FVec F S512x1 .f32 := select v24 v31 v32
  have v34 : FVec F S1 .f32 := multiReduction .add [0] S1 v33 0x00000000#32 reduces_S512x1_S1 (.inl rfl) rfl
  shapeCast S1x1 v34 shapeCasts_S1_S1x1

/-- The first chunk's payload starts the running total from zero. -/
theorem pay4_eq (v8 : Vec F S512x1000 .f32) (v10 : Vec F S512x1 .i32) :
    k0_pay4 v8 v10 = addf (broadcast S1x1 (Scalar.ofBits .f32 0x00000000#32)) (chunkLoss v8 v10) := rfl

/-- The second chunk's payload adds its total to the running total. -/
theorem pay5_eq (v36 : FVec F S1x1 .f32) (v40 : Vec F S512x1000 .f32) (v42 : Vec F S512x1 .i32) :
    k0_pay5 colIota v36 v40 v42 = addf v36 (chunkLoss v40 v42) := rfl

/-- The third chunk's payload, which the printed body cuts in three, likewise. -/
theorem pay9_eq (v68 : FVec F S1x1 .f32) (v72 : Vec F S512x1000 .f32) (v74 : Vec F S512x1 .i32) :
    k0_pay9 colIota v68 (k0_pay6 v74) (k0_pay7 v72) (k0_pay8 v72) = addf v68 (chunkLoss v72 v74) := rfl

/-- The stored value: the accumulator's old entry plus the running total with the fourth chunk added. -/
theorem pay1_eq (v100 : FVec F S1x1 .f32) (v104 : Vec F S512x1000 .f32) (v106 : Vec F S512x1 .i32) (v133 : Vec F S1x1 .f32) :
    k0_pay1 v100 (k0_pay11 v106) (k0_pay12 colIota v104 v106) v133
      = shapeCast S1x1 (addf v133 (addf v100 (chunkLoss v104 v106))) shapeCasts_S1x1_S1x1 := rfl

end Cert.KernelIdeal.XEnt

end
-- ==== Proof.TileLoss.lean ====
/-
  One grid point of the kernel: a tile of 2048 rows, and what the point leaves in the accumulator.

  The body reads its tile as four chunks of 512 rows (rows 0, 512, 1024, 1536 on), adds the four chunks' losses to a
  running total that starts from zero, and adds that total to entry (0, 0) of the 8 × 128 accumulator, which it keeps
  between grid points: at the first point of a partition it first fills the accumulator with zeros, so the entry it
  adds to is zero; at the other points the entry is what the point before left.  At the last point of a partition it
  also copies the whole accumulator into the output block, so entry (0, 0, 0) of that block is the accumulator's
  entry (0, 0).  Only that entry matters to the result.
-/
import proofs.«422560_j42021960024720_3_alg».proof.Proof.Gen.KernelIdeal.Frame
import proofs.«422560_j42021960024720_3_alg».proof.Proof.ChunkDef
import Idealize.ShloMosaic.Lib.Pipeline.Value
import Idealize.ShloMosaic.Lib.WritesUnit
import Idealize.ShloMosaic.Lib.ValueIdx
import Idealize.ShloMosaic.Lib.Tactic

noncomputable section

namespace Cert.KernelIdeal.XEnt

open Idealize.ShloMosaic Idealize.ShloMosaic.TcCoe Idealize.SL.Sem Idealize.ShloMosaic.ValueIdx
open Cert.KernelIdeal Cert.KernelIdeal.Gen

variable {F : FTy → Type} [FloatOps F]

/-- Rows `o` to `o + 511` of a tile of logits. -/
abbrev chunkRows (x0 : Vec F S2048x1000 .f32) (o : Nat) (h : ∀ a, (![o, 0] : Fin 2 → Nat) a + (![512, 1000] : Fin 2 → Nat) a ≤ S2048x1000.size a) :
    Vec F S512x1000 .f32 := View.ld x0 (Rect.unit (s := S2048x1000) ![o, 0] ![512, 1000] h)

/-- The class indices of those rows. -/
abbrev chunkLabels (x1 : Vec F S2048x1 .i32) (o : Nat) (h : ∀ a, (![o, 0] : Fin 2 → Nat) a + (![512, 1] : Fin 2 → Nat) a ≤ S2048x1.size a) :
    Vec F S512x1 .i32 := View.ld x1 (Rect.unit (s := S2048x1) ![o, 0] ![512, 1] h)

/-- The tile's total loss: the four chunks' losses added, in order, to a zero. -/
def tileLoss (x0 : Vec F S2048x1000 .f32) (x1 : Vec F S2048x1 .i32) : FVec F S1x1 .f32 :=
  addf (addf (addf (addf (broadcast S1x1 (Scalar.ofBits .f32 0x00000000#32))
    (chunkLoss (chunkRows x0 0 (by decide)) (chunkLabels x1 0 (by decide))))
    (chunkLoss (chunkRows x0 512 (by decide)) (chunkLabels x1 512 (by decide))))
    (chunkLoss (chunkRows x0 1024 (by decide)) (chunkLabels x1 1024 (by decide))))
    (chunkLoss (chunkRows x0 1536 (by decide)) (chunkLabels x1 1536 (by decide)))

/-- What the body stores at the accumulator's entry (0, 0): the entry it read there plus the tile's loss. -/
def stored (x0 : Vec F S2048x1000 .f32) (x1 : Vec F S2048x1 .i32) (old : Vec F S1x1 .f32) : FVec F S1x1 .f32 :=
  shapeCast S1x1 (addf old (tileLoss x0 x1)) shapeCasts_S1x1_S1x1

/-- The printed payloads, chained as the body chains them over its eight loads, are that stored value. -/
theorem payload_eq (x0 : Vec F S2048x1000 .f32) (x1 : Vec F S2048x1 .i32) (old : Vec F S1x1 .f32)
    (h0 h1 h2 h3) (g0 g1 g2 g3) :
    k0_pay1
      (k0_pay9 colIota
        (k0_pay5 colIota (k0_pay4 (chunkRows x0 0 h0) (chunkLabels x1 0 g0)) (chunkRows x0 512 h1) (chunkLabels x1 512 g1))
        (k0_pay6 (chunkLabels x1 1024 g2)) (k0_pay7 (chunkRows x0 1024 h2)) (k0_pay8 (chunkRows x0 1024 h2)))
      (k0_pay11 (chunkLabels x1 1536 g3)) (k0_pay12 colIota (chunkRows x0 1536 h3) (chunkLabels x1 1536 g3)) old
      = stored x0 x1 old := by
  rw [pay4_eq, pay5_eq, pay9_eq, pay1_eq]
  rfl

/-- The 1 × 1 corner of the accumulator at (0, 0). -/
abbrev corner : Rect S8x128 := Rect.unit (s := S8x128) ![0, 0] ![1, 1] inb_S8x128_S1x1_0_0

/-- A point that is not the first of its partition leaves, at the accumulator's entry (0, 0), what the point before
    left there plus the tile's loss. -/
theorem acc_B (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S2048x1000 .f32) (x1 : Vec F S2048x1 .i32) (xs0 : Vec F S8x128 .f32) :
    sout0_B_0 c i arg2 harg2 arg3 harg3 arg4 harg4 arg5 harg5 hc0 hc1 x0 x1 xs0 (ix2 (0 : Fin 8) (0 : Fin 128))
      = stored x0 x1 (View.ld xs0 corner) (ix2 (0 : Fin 1) (0 : Fin 1)) := by
  unfold sout0_B_0 kernelRun0_B
  dsimp only
  rw [View.read_writes_cons_unit_of_mem arg5.view _ inb_S8x128_S1x1_0_0 _ [] (ix2 (0 : Fin 8) (0 : Fin 128)) (ix2 (0 : Fin 1) (0 : Fin 1)) rfl
    (fun a => by match a with | ⟨0, _⟩ => rfl | ⟨1, _⟩ => rfl)]
  sl_unfold_words
  simp only [View.readAt_eq_ld, harg2.read_unread, harg3.read_unread, harg5.read_unread]
  exact congrFun (payload_eq x0 x1 (View.ld xs0 corner) _ _ _ _ _ _ _ _) _

/-- The last point of a partition leaves the same in the accumulator. -/
theorem acc_C (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S2048x1000 .f32) (x1 : Vec F S2048x1 .i32) (xs0 : Vec F S8x128 .f32) :
    sout0_C_0 c i arg2 harg2 arg3 harg3 arg4 harg4 arg5 harg5 hc0 hc1 x0 x1 xs0 (ix2 (0 : Fin 8) (0 : Fin 128))
      = stored x0 x1 (View.ld xs0 corner) (ix2 (0 : Fin 1) (0 : Fin 1)) := by
  unfold sout0_C_0 kernelRun0_C
  dsimp only
  sl_unfold_words
  rw [View.read_writes_cons_unit_of_mem arg5.view _ inb_S8x128_S1x1_0_0 _ [] (ix2 (0 : Fin 8) (0 : Fin 128)) (ix2 (0 : Fin 1) (0 : Fin 1)) rfl
    (fun a => by match a with | ⟨0, _⟩ => rfl | ⟨1, _⟩ => rfl)]
  simp only [View.readAt_eq_ld, harg2.read_unread, harg3.read_unread, harg5.read_unread]
  exact congrFun (payload_eq x0 x1 (View.ld xs0 corner) _ _ _ _ _ _ _ _) _

/-- and copies the accumulator into the output block: the block's entry (0, 0, 0) is the accumulator's entry (0, 0). -/
theorem out_C (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S2048x1000 .f32) (x1 : Vec F S2048x1 .i32) (xs0 : Vec F S8x128 .f32) :
    out0_C_2 c i arg2 harg2 arg3 harg3 arg4 harg4 arg5 harg5 hc0 hc1 x0 x1 xs0 (ix3 (0 : Fin 1) (0 : Fin 8) (0 : Fin 128))
      = sout0_C_0 c i arg2 harg2 arg3 harg3 arg4 harg4 arg5 harg5 hc0 hc1 x0 x1 xs0 (ix2 (0 : Fin 8) (0 : Fin 128)) := by
  unfold out0_C_2 sout0_C_0 kernelRun0_C
  dsimp only
  rw [View.read_writes_cons_unit_of_mem VO0_2 _ inb_S1x8x128_S1x8x128_0_0_0 _ [] (ix3 (0 : Fin 1) (0 : Fin 8) (0 : Fin 128)) (ix3 (0 : Fin 1) (0 : Fin 8) (0 : Fin 128)) rfl
    (fun a => by match a with | ⟨0, _⟩ => rfl | ⟨1, _⟩ => rfl | ⟨2, _⟩ => rfl)]
  sl_unfold_words
  simp only [View.readAt_eq_ld, harg5.read_unread]
  unfold k0_pay2
  refine (shapeCast_apply _ shapeCasts_S8x128_S1x8x128 (ix3 (0 : Fin 1) (0 : Fin 8) (0 : Fin 128)) (ix2 (0 : Fin 8) (0 : Fin 128)) (by decide)).trans ?_
  have hz : (![0, 0] : Fin 2 → Nat) = fun _ => 0 := funext fun a => by fin_cases a <;> rfl
  exact congrFun (View.ld_unit_zero hz inb_S8x128_S8x128_0_0 _) _

/-- The first point of a partition fills the accumulator with zeros first: the entry it adds the tile's loss to
    is the zero it has just stored. -/
theorem acc_A (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S2048x1000 .f32) (x1 : Vec F S2048x1 .i32) :
    sout0_A_0 c i arg2 harg2 arg3 harg3 arg4 harg4 arg5 harg5 hc0 hc1 x0 x1 (ix2 (0 : Fin 8) (0 : Fin 128))
      = stored x0 x1 (fun _ => Scalar.ofBits .f32 0x00000000#32) (ix2 (0 : Fin 1) (0 : Fin 1)) := by
  unfold sout0_A_0 kernelRun0_A
  dsimp only
  rw [View.read_writes_cons_unit_of_mem VS0_0 _ inb_S8x128_S1x1_0_0 _ _ (ix2 (0 : Fin 8) (0 : Fin 128)) (ix2 (0 : Fin 1) (0 : Fin 1)) rfl
    (fun a => by match a with | ⟨0, _⟩ => rfl | ⟨1, _⟩ => rfl)]
  sl_unfold_words
  simp only [View.readAt_eq_ld, harg2.read_unread, harg3.read_unread, harg5.read_unread]
  have hz : (![0, 0] : Fin 2 → Nat) = fun _ => 0 := funext fun a => by fin_cases a <;> rfl
  rw [View.readCov_eq_canon', View.canon_unit_zero hz]
  have hzero : (fun j => (k0_pay3 (F := F)) ((Rect.unit (s := S8x128) ![0, 0] ![1, 1] inb_S8x128_S1x1_0_0).toLoadRect.idx j))
      = fun _ => Scalar.ofBits .f32 0x00000000#32 := by
    funext j
    unfold k0_pay3
    rw [shapeCast_self]
    rfl
  rw [hzero]
  exact congrFun (payload_eq x0 x1 _ _ _ _ _ _ _ _ _) _

end Cert.KernelIdeal.XEnt

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Accumulate.lean ====
/-
  The accumulator over the grid.

  The grid has 2 × 64 points, numbered 64 p + k for partition p and step k.  Write tileAt t for the loss of the tile
  the point t reads.  The accumulator's entry (0, 0) after the first point of a partition holds 0 + tileAt, and after
  each later point what it held plus that point's tileAt; so after the last point of partition p it holds the sum of
  tileAt over the partition's 64 points, and that is what the point copies to entry (0, 0, 0) of the output block.
-/
import proofs.«422560_j42021960024720_3_alg».proof.Proof.TileLoss
import proofs.«422560_j42021960024720_3_alg».proof.Proof.LibBlockSum
import Idealize.ShloMosaic.PureOps.Ideal.Laws

noncomputable section

namespace Cert.KernelIdeal.XEnt

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The tile of logits the grid point `t` reads, -/
abbrev xblk (c : Dev nD) (t : Fin cfg0.N) : Vec Ideal S2048x1000 .f32 := iblk m c 0 t
/-- and its class indices. -/
abbrev lblk (c : Dev nD) (t : Fin cfg0.N) : Vec Ideal S2048x1 .i32 := iblk m c 1 t

/-- The loss of the tile at grid point `t`. -/
def tileAt (c : Dev nD) (t : Fin cfg0.N) : EReal := tileLoss (F := Ideal) (xblk m c t) (lblk m c t) (ix2 (0 : Fin 1) (0 : Fin 1))

/-- The accumulator's entry (0, 0) after grid point `n`. -/
def acc (c : Dev nD) (n : ℕ) (hn : n < cfg0.N) : EReal := (outsAt0 m c n hn).2 (ix2 (0 : Fin 8) (0 : Fin 128))

theorem acc_congr (c : Dev nD) {n n' : ℕ} (h : n = n') (hn : n < cfg0.N) (hn' : n' < cfg0.N) : acc m c n hn = acc m c n' hn' := by
  subst h; rfl

/-- The stored entry, on the extended reals: the entry read plus the tile's loss. -/
theorem stored_apply (x0 : Vec Ideal S2048x1000 .f32) (x1 : Vec Ideal S2048x1 .i32) (old : Vec Ideal S1x1 .f32) :
    stored (F := Ideal) x0 x1 old (ix2 (0 : Fin 1) (0 : Fin 1))
      = old (ix2 (0 : Fin 1) (0 : Fin 1)) + tileLoss (F := Ideal) x0 x1 (ix2 (0 : Fin 1) (0 : Fin 1)) := by
  unfold stored
  rw [shapeCast_self]
  rfl

/-- After the first point of a partition the entry is zero plus that point's tile loss. -/
theorem acc_first (c : Dev nD) (t : Fin cfg0.N) (h0 : t.val % 64 = 0) : acc m c t.val t.isLt = 0 + tileAt m c t := by
  have h1 : ¬t.val % 64 = 63 := by omega
  unfold acc
  rw [outsAt0_A m c t h0 h1]
  dsimp only
  rw [acc_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t), stored_apply]
  show Ideal.ofBits .f32 0x00000000#32 + _ = _
  rw [Ideal.ofBits_zero_f32]
  rfl

/-- The accumulator's corner read at its one index is the entry (0, 0). -/
theorem ld_corner (xs0 : Vec Ideal S8x128 .f32) :
    View.ld xs0 corner (ix2 (0 : Fin 1) (0 : Fin 1)) = xs0 (ix2 (0 : Fin 8) (0 : Fin 128)) :=
  congrArg xs0 (funext fun a => Fin.ext (by match a with | ⟨0, _⟩ => rfl | ⟨1, _⟩ => rfl))

/-- After any other point the entry is what the point before left plus this point's tile loss. -/
theorem acc_next (c : Dev nD) (t : Fin cfg0.N) (h0 : ¬t.val % 64 = 0) :
    acc m c t.val t.isLt = acc m c (t.val - 1) (Nat.lt_of_le_of_lt (Nat.sub_le _ _) t.isLt) + tileAt m c t := by
  unfold acc
  by_cases h1 : t.val % 64 = 63
  · rw [outsAt0_C m c t h0 h1]
    dsimp only
    rw [acc_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2, stored_apply, ld_corner]
    rfl
  · rw [outsAt0_B m c t h0 h1]
    dsimp only
    rw [acc_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2, stored_apply, ld_corner]
    rfl

/-- The last point of a partition copies the accumulator to the output block: the block's entry (0, 0, 0) is the
    accumulator's entry (0, 0). -/
theorem out_last (c : Dev nD) (t : Fin cfg0.N) (h1 : t.val % 64 = 63) :
    (outsAt0 m c t.val t.isLt).1 (ix3 (0 : Fin 1) (0 : Fin 8) (0 : Fin 128)) = acc m c t.val t.isLt := by
  have h0 : ¬t.val % 64 = 0 := by omega
  unfold acc
  rw [outsAt0_C m c t h0 h1]
  dsimp only
  exact out_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- Grid point `64 p + k`. -/
def pt (p : Fin 2) (k : ℕ) (hk : k < 63 + 1) : Fin cfg0.N :=
  ⟨64 * p.val + k, by have hN : cfg0.N = 128 := N_0; have := p.isLt; omega⟩

/-- After the last point of partition `p` the accumulator's entry (0, 0) holds the sum of the partition's 64 tile
    losses. -/
theorem acc_partition (c : Dev nD) (p : Fin 2) :
    acc m c (pt p 63 (Nat.lt_succ_self 63)).val (pt p 63 (Nat.lt_succ_self 63)).isLt
      = ∑ k : Fin (63 + 1), tileAt m c (pt p k.val k.isLt) := by
  refine Cert.BlockSum.chain_last 63 (fun k hk => acc m c (pt p k hk).val (pt p k hk).isLt) (fun k hk => tileAt m c (pt p k hk)) ?_ ?_
  · intro h
    exact acc_first m c (pt p 0 h) (by show (64 * p.val + 0) % 64 = 0; omega)
  · intro k h
    have hne : ¬(pt p (k + 1) h).val % 64 = 0 := by show ¬(64 * p.val + (k + 1)) % 64 = 0; omega
    rw [acc_next m c (pt p (k + 1) h) hne]
    congr 1

end Cert.KernelIdeal.XEnt

end
-- ==== Proof.KernelValue.lean ====
/-
  What the kernel's program returns.

  The output array has one 8 × 128 block per partition, written back after the partition's last grid point; its entry
  (p, 0, 0) is then the sum of the 64 tile losses of partition p.  The lines after the region take the two entries
  (0, 0, 0) and (1, 0, 0), add them to a zero and divide by 262144.
-/
import proofs.«422560_j42021960024720_3_alg».proof.Proof.Accumulate
import Idealize.ShloMosaic.Lib.StableHlo.Run
import Idealize.ShloMosaic.Lib.Pipeline.Value
import Idealize.ShloMosaic.PureOps.Ideal.Laws
import Idealize.ShloMosaic.Lib.ValueIdxRank1

noncomputable section

namespace Cert.KernelIdeal.XEnt

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The output window's block index at grid point `t` is (t / 64, 0, 0). -/
theorem idx_out : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

theorem outs_congr (c : Dev nD) {n n' : ℕ} (h : n = n') (hn : n < cfg0.N) (hn' : n' < cfg0.N) :
    (outsAt0 m c n hn).1 = (outsAt0 m c n' hn').1 := by
  subst h; rfl

/-- The output array as one function of its index: entry (p, a, b) is entry (0, a, b) of what the last point of
    partition p left in the output block. -/
def outArr (c : Dev nD) : Buf (Elt Ideal) ((c : Thread nD τ).loc main_v1) := fun i =>
  (outsAt0 m c (64 * (i 0).val + 63) (by have h : (i 0).val < 2 := (i 0).isLt; have hN : cfg0.N = 128 := N_0; omega)).1
    (ix3 (0 : Fin 1) (⟨(i 1).val, (i 1).isLt⟩ : Fin 8) (⟨(i 2).val, (i 2).isLt⟩ : Fin 128))

/-- What a write-back writes is its block of that function. -/
theorem flushed_eq (c : Dev nD) (t : Fin cfg0.N) (hf : (cfg0.win 2).flush t = true) :
    (dats m 0 c).flushed 2 t = ((cfg0.win 2).blk t).view.read (Elt Ideal) (outArr m c) := by
  have h63 : t.val % 64 = 63 := (flush0_2 t).mp hf
  obtain ⟨e0, e1, e2⟩ := idx_out t
  show (cfg0.win 2).cut (grid0.coords t) ((dats m 0 c).after 2 t) = _
  rw [after0_2]
  funext y
  have hy0 : (y 0).val < 1 := (y 0).isLt
  have hy1 : (y 1).val < 8 := (y 1).isLt
  have hy2 : (y 2).val < 128 := (y 2).isLt
  show (outsAt0 m c t.val t.isLt).1 y = outArr m c (((cfg0.win 2).blk t).view.emb y)
  unfold outArr
  have k0 : ((((cfg0.win 2).blk t).view.emb y) 0).val = win0_2.index t (0 : Fin 3) * 1 + 1 * (y 0).val := rfl
  have k1 : ((((cfg0.win 2).blk t).view.emb y) 1).val = win0_2.index t (1 : Fin 3) * 8 + 1 * (y 1).val := rfl
  have k2 : ((((cfg0.win 2).blk t).view.emb y) 2).val = win0_2.index t (2 : Fin 3) * 128 + 1 * (y 2).val := rfl
  refine (congrFun (outs_congr m c (by rw [k0, e0]; omega) _ _) y).trans (congrArg _ ?_)
  funext a
  apply Fin.ext
  match a with
  | ⟨0, _⟩ => show (y 0).val = 0; omega
  | ⟨1, _⟩ => show (y 1).val = ((((cfg0.win 2).blk t).view.emb y) 1).val; rw [k1, e1]; omega
  | ⟨2, _⟩ => show (y 2).val = ((((cfg0.win 2).blk t).view.emb y) 2).val; rw [k2, e2]; omega

/-- After the run, entry (p, 0, 0) of the output array is the sum of the 64 tile losses of partition `p`. -/
theorem final_at (c : Dev nD) (p : Fin 2) :
    (dats m 0 c).arrAt 2 cfg0.N (ix3 p (0 : Fin 8) (0 : Fin 128)) = ∑ k : Fin (63 + 1), tileAt m c (pt p k.val k.isLt) := by
  have h63 : (pt p 63 (Nat.lt_succ_self 63)).val % 64 = 63 := by show (64 * p.val + 63) % 64 = 63; omega
  have hf : (cfg0.win 2).flush (pt p 63 (Nat.lt_succ_self 63)) = true := (flush0_2 _).mpr h63
  obtain ⟨e0, e1, e2⟩ := idx_out (pt p 63 (Nat.lt_succ_self 63))
  have hp : p.val < 2 := p.isLt
  have hmem : (ix3 p (0 : Fin 8) (0 : Fin 128) : S2x8x128.Idx) ∈ ((cfg0.win 2).blk (pt p 63 (Nat.lt_succ_self 63))).view.set := by
    show _ ∈ ((View.whole main_v1).slice (win0_2.rect (pt p 63 (Nat.lt_succ_self 63)))).set
    rw [View.set_slice_whole, Rect.mem_set_unit]
    intro a
    match a with
    | ⟨0, _⟩ =>
      show win0_2.index (pt p 63 (Nat.lt_succ_self 63)) (0 : Fin 3) * 1 ≤ p.val ∧ p.val < win0_2.index (pt p 63 (Nat.lt_succ_self 63)) (0 : Fin 3) * 1 + 1
      rw [e0]; show (64 * p.val + 63) / 64 * 1 ≤ p.val ∧ p.val < (64 * p.val + 63) / 64 * 1 + 1; omega
    | ⟨1, _⟩ =>
      show win0_2.index (pt p 63 (Nat.lt_succ_self 63)) (1 : Fin 3) * 8 ≤ 0 ∧ 0 < win0_2.index (pt p 63 (Nat.lt_succ_self 63)) (1 : Fin 3) * 8 + 8
      rw [e1]; omega
    | ⟨2, _⟩ =>
      show win0_2.index (pt p 63 (Nat.lt_succ_self 63)) (2 : Fin 3) * 128 ≤ 0 ∧ 0 < win0_2.index (pt p 63 (Nat.lt_succ_self 63)) (2 : Fin 3) * 128 + 128
      rw [e2]; omega
  rw [(dats m 0 c).arrAt_apply_of_mem 2 (outArr m c) (flushed_eq m c) cfg0.N (pt p 63 (Nat.lt_succ_self 63)) _
    (pt p 63 (Nat.lt_succ_self 63)).isLt hf hmem]
  exact (out_last m c (pt p 63 (Nat.lt_succ_self 63)) h63).trans (acc_partition m c p)

/-- The kernel program's result, as a function of the tiles it reads. -/
def kernelResult (c : Dev nD) : Buf (Elt Ideal) ((c.tc : Thread nD τ).loc main_v5) := fun _ =>
  Ideal.div (Ideal.ofBits .f32 0x00000000#32 + ∑ p : Fin 2, ∑ k : Fin (63 + 1), tileAt m c (pt p k.val k.isLt))
    (Ideal.ofBits .f32 0x48800000#32)

set_option maxHeartbeats 1000000 in
/-- The lines after the region, read: the slice, the reshape, the sum from zero and the quotient of the output array. -/
theorem tail_eq (c : Dev nD) :
    Pipeline.afterTail₀ cfgs (dats m) 0 (V0 m) [hostOps1] c main_v5 = kernelResult m c := by
  unfold Pipeline.afterTail₀
  show StableHlo.after hostOps1 _ (Proc.devRef .tc main_v5) = _
  after_results
  rw [Pipeline.withArrays_arr spec0 launch0.win.arr_inj c _ _ 2]
  funext j
  unfold kernelResult
  simp only [Host.divf, Host.reduceAdd, Ideal.hostReduceAdd_def, Ideal.hostDivf_def]
  rw [Ideal.hostReduceAdd_total reducesTo_S2_S_d0 (fun b => b.elim0)]
  refine congrArg₂ Ideal.div (congrArg₂ (· + ·) rfl ?_) rfl
  refine (Equiv.sum_comp (idxEquiv1 (n := 2)).symm _).symm.trans (Finset.sum_congr rfl fun p _ => ?_)
  have hp : p.val < 2 := p.isLt
  refine (shapeCast_apply _ shapeCasts_S2x1x1_S2 _ (ix3 p (0 : Fin 1) (0 : Fin 1)) (by
    rw [Shape.rowMajor_val_three, Shape.rowMajor_val_one]
    show (p.val * 1 + 0) * 1 + 0 = p.val
    omega)).trans ?_
  refine (extractStridedSlice_apply _ _ slices_S2x8x128_S2x1x1_0_0_0 (ix3 p (0 : Fin 1) (0 : Fin 1)) (ix3 p (0 : Fin 8) (0 : Fin 128)) (fun a => by
    match a with
    | ⟨0, _⟩ => show p.val = 0 + p.val; omega
    | ⟨1, _⟩ => rfl
    | ⟨2, _⟩ => rfl)).trans ?_
  exact final_at m c p

/-- The kernel's run, read: the result buffer at `kernelResult`, the two arguments unchanged. -/
theorem run : θ_run defs (onTc (τ := τ) (main (F := Ideal))) ⟨m, fun _ => 0, ρ⟩ fun r => ∀ c : Dev nD,
      r.2.mem ((c.tc : Thread nD τ).loc main_v5) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.XEnt

end
-- ==== Proof.ChunkLoss.lean ====
/-
  One chunk of 512 rows: the sum over the chunk's rows of each row's cross-entropy loss.

  The kernel body handles its 2048-row tile as four chunks of 512 rows.  For a chunk x of logits and its column lw of
  class indices it computes, row by row, the maximum M, the shifted row x - M, log (∑ exp (x - M)), and the shifted
  logit at the row's class (a sum over the columns of the shifted row masked by "column = class"); the row's loss is
  the difference, kept only where the class index lies in [0, 1000), and the chunk's total is the sum over the rows.
  Read on the extended reals, with every class index in range, the chunk's total is the sum over its rows of
  `CrossEntropy.loss`: the chain is cut into its row-wise pieces (the broadcast maximum, the shifted rows, the
  log-sum-exp column, the picked column, the mask of valid rows), each piece is read at a row, and the rows are added.
-/
import proofs.«422560_j42021960024720_3_alg».proof.Proof.ChunkDef
import proofs.«422560_j42021960024720_3_alg».proof.Proof.RowLoss
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.XEnt

open Idealize.ShloMosaic Idealize.ShloMosaic.ValueIdx Cert.KernelIdeal Cert.KernelIdeal.Gen

variable {F : FTy → Type} [FloatOps F]

/-! ## The chain's layout operations and reductions read at an index -/

section IndexReads
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1]` array cast to `[1, 1]`. -/
theorem shapeCast_1_11_apply (x : (⟨1, ![1]⟩ : Shape).Idx → α) (h : (⟨1, ![1]⟩ : Shape).ShapeCasts ⟨2, ![1, 1]⟩)
    (i : (⟨2, ![1, 1]⟩ : Shape).Idx) : shapeCast ⟨2, ![1, 1]⟩ x h i = x (ix1 (0 : Fin 1)) := by
  obtain ⟨u, v, rfl⟩ : ∃ (u v : Fin 1), i = ix2 u v := ⟨i 0, i 1, eq_ix2 i⟩
  rw [shapeCast_a_1a_apply x h u v]
  exact congrArg x (congrArg ix1 (Subsingleton.elim _ _))

end IndexReads

/-- The sum along the rows' axis, read at row `r`: the sum over the columns. -/
theorem sumAxis1_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src ?_
  funext ax
  match ax with
  | ⟨0, _⟩ => rfl
  | ⟨1, _⟩ => rfl

/-- The sum along the columns' axis of a one-column array: the sum over the rows. -/
theorem sumAxis0_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (u : Fin 1) :
    multiReduction (F := Ideal) .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src ?_
  funext ax
  match ax with
  | ⟨0, _⟩ => rfl
  | ⟨1, _⟩ => exact Fin.ext (show u.val = 0 by omega)

/-- The word of minus infinity is the bottom of the extended reals. -/
theorem ofBits_negInf_f32 : Ideal.ofBits .f32 0xFF800000#32 = ⊥ := by
  simp [Ideal.ofBits, Ideal.ieee]

/-- The maximum along the rows' axis, read at row `r`: the fold of `max` from `-∞` over the columns. -/
theorem maxAxis1_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction (F := Ideal) .maximumf [1] ⟨1, ![a]⟩ src 0xFF800000#32 h hφ hacc (ix1 r)
      = (Finset.univ : Finset (Fin b)).fold max ⊥ (fun c => src (ix2 r c)) := by
  refine (Ideal.multiReduction_maximumf_single src _ h hφ hacc (ix1 r)).trans ?_
  rw [Ideal.ofBits_def, ofBits_negInf_f32]
  refine congrArg (Finset.fold max ⊥ · Finset.univ) ?_
  funext c
  refine congrArg src ?_
  funext ax
  match ax with
  | ⟨0, _⟩ => rfl
  | ⟨1, _⟩ => rfl

/-! ## The chain cut into its row-wise pieces -/

/-- The rows' maxima, broadcast along the rows. -/
def rowMaxB (x : Vec F S512x1000 .f32) : FVec F S512x1000 .f32 :=
  broadcastTo S512x1000
    (shapeCast S512x1 (multiReduction .maximumf [1] S512 x 0xFF800000#32 reduces_S512x1000_S512 (.inl rfl) rfl)
      shapeCasts_S512_S512x1)
    broadcasts_S512x1_S512x1000

/-- The rows shifted by their maxima. -/
def shiftedV (x : Vec F S512x1000 .f32) : FVec F S512x1000 .f32 := subf x (rowMaxB x)

/-- The rows' log-sum-exp of the shifted rows, as a column. -/
def lseV (x : Vec F S512x1000 .f32) : FVec F S512x1 .f32 :=
  log (shapeCast S512x1
    (multiReduction .add [1] S512 (exp (shiftedV x)) 0x00000000#32 reduces_S512x1000_S512 (.inl rfl) rfl)
    shapeCasts_S512_S512x1)

/-- The class indices as the chain reads them. -/
def classV (lw : Vec F S512x1 .i32) : IVec S512x1 32 := shapeCast S512x1 lw shapeCasts_S512x1_S512x1

/-- The shifted logit at each row's class, as a column: the masked sum over the columns. -/
def pickedV (x : Vec F S512x1000 .f32) (lw : Vec F S512x1 .i32) : FVec F S512x1 .f32 :=
  shapeCast S512x1
    (multiReduction .add [1] S512
      (select (cmpi .eq colIota (broadcastTo S512x1000 (classV (F := F) lw) broadcasts_S512x1_S512x1000)) (shiftedV x)
        (broadcast S512x1000 (Scalar.ofBits .f32 0x00000000#32)))
      0x00000000#32 reduces_S512x1000_S512 (.inl rfl) rfl)
    shapeCasts_S512_S512x1

/-- The rows whose class index lies in [0, 1000). -/
def validV (lw : Vec F S512x1 .i32) : IVec S512x1 1 :=
  andi (cmpi .sge (classV (F := F) lw) (broadcast S512x1 0#32)) (cmpi .slt (classV (F := F) lw) (broadcast S512x1 1000#32))

/-- The chain is the sum over the rows of the masked difference of the two columns. -/
theorem chunkLoss_eq (x : Vec F S512x1000 .f32) (lw : Vec F S512x1 .i32) :
    chunkLoss x lw
      = shapeCast S1x1
          (multiReduction .add [0] S1
            (select (validV (F := F) lw) (subf (lseV x) (pickedV x lw)) (broadcast S512x1 (Scalar.ofBits .f32 0x00000000#32)))
            0x00000000#32 reduces_S512x1_S1 (.inl rfl) rfl)
          shapeCasts_S1_S1x1 := rfl

/-! ## The pieces read at a row, on the extended reals -/

/-- The broadcast maximum at `(r, c)` is the maximum of row `r`. -/
theorem rowMaxB_apply (x : Vec Ideal S512x1000 .f32) (r : Fin 512) (c : Fin 1000) :
    rowMaxB (F := Ideal) x (ix2 r c) = CrossEntropy.rowMax (fun c : Fin 1000 => x (ix2 r c)) := by
  unfold rowMaxB CrossEntropy.rowMax
  exact (broadcastTo_a1_ab_apply _ _ r c).trans ((shapeCast_a_a1_apply _ _ r 0).trans (maxAxis1_apply x _ _ _ r))

/-- The shifted chunk at `(r, c)` is the shifted row `r` at `c`. -/
theorem shiftedV_apply (x : Vec Ideal S512x1000 .f32) (r : Fin 512) (c : Fin 1000) :
    shiftedV (F := Ideal) x (ix2 r c) = CrossEntropy.shifted (fun c : Fin 1000 => x (ix2 r c)) c := by
  unfold shiftedV CrossEntropy.shifted
  show x (ix2 r c) - rowMaxB (F := Ideal) x (ix2 r c) = _
  rw [rowMaxB_apply]

/-- The log-sum-exp column at row `r`. -/
theorem lseV_apply (x : Vec Ideal S512x1000 .f32) (r : Fin 512) (u : Fin 1) :
    lseV (F := Ideal) x (ix2 r u) = CrossEntropy.lse (fun c : Fin 1000 => x (ix2 r c)) := by
  unfold lseV CrossEntropy.lse CrossEntropy.sumExp
  refine congrArg Ideal.log ?_
  refine (shapeCast_a_a1_apply _ _ r u).trans ((sumAxis1_apply _ _ _ _ _ r).trans ?_)
  refine Finset.sum_congr rfl fun c _ => ?_
  show Ideal.exp (shiftedV (F := Ideal) x (ix2 r c)) = _
  rw [shiftedV_apply]

/-- The class indices as the chain reads them are the class indices. -/
theorem classV_apply (lw : Vec Ideal S512x1 .i32) (j : S512x1.Idx) : classV (F := Ideal) lw j = lw j := by
  unfold classV
  rw [shapeCast_self]

/-- The mask "column = class" at `(r, c)` compares the word of `c` with row `r`'s class index. -/
theorem isClass_apply (lw : Vec Ideal S512x1 .i32) (r : Fin 512) (c : Fin 1000) :
    cmpi .eq colIota (broadcastTo S512x1000 (classV (F := Ideal) lw) broadcasts_S512x1_S512x1000) (ix2 r c)
      = IntOp.cmpi .eq (BitVec.ofNat 32 c.val) (lw (ix2 r (0 : Fin 1))) := by
  show IntOp.cmpi .eq (colIota (ix2 r c))
    (broadcastTo S512x1000 (classV (F := Ideal) lw) broadcasts_S512x1_S512x1000 (ix2 r c)) = _
  rw [broadcastTo_a1_ab_apply, classV_apply]
  refine congrArg (IntOp.cmpi .eq · _) ?_
  exact iota_single_apply .tc S512x1000 32 1 _ (ix2 r c)

/-- With the class index in range, the masked sum over the columns picks the shifted logit at the class: the word of
    column `c` equals the class index exactly when `c` is its value, so one term of the sum survives. -/
theorem pickedV_apply (x : Vec Ideal S512x1000 .f32) (lw : Vec Ideal S512x1 .i32) (r : Fin 512) (u : Fin 1)
    (hl : (lw (ix2 r (0 : Fin 1))).toNat < 1000) :
    pickedV (F := Ideal) x lw (ix2 r u)
      = CrossEntropy.shifted (fun c : Fin 1000 => x (ix2 r c)) ⟨(lw (ix2 r (0 : Fin 1))).toNat, hl⟩ := by
  unfold pickedV
  refine (shapeCast_a_a1_apply _ _ r u).trans ((sumAxis1_apply _ _ _ _ _ r).trans ?_)
  have hterm : ∀ c : Fin 1000,
      select (cmpi .eq colIota (broadcastTo S512x1000 (classV (F := Ideal) lw) broadcasts_S512x1_S512x1000))
        (shiftedV (F := Ideal) x) (broadcast S512x1000 (Scalar.ofBits (F := Ideal) .f32 0x00000000#32)) (ix2 r c)
      = if c = ⟨(lw (ix2 r (0 : Fin 1))).toNat, hl⟩ then CrossEntropy.shifted (fun c : Fin 1000 => x (ix2 r c)) c else 0 := by
    intro c
    rw [select_apply, isClass_apply, shiftedV_apply]
    show Scalar.select _ _ (Ideal.ofBits .f32 0x00000000#32) = _
    rw [Ideal.ofBits_zero_f32]
    by_cases hc : c = ⟨(lw (ix2 r (0 : Fin 1))).toNat, hl⟩
    · rw [if_pos hc]
      have h1 : IntOp.cmpi .eq (BitVec.ofNat 32 c.val) (lw (ix2 r (0 : Fin 1))) = 1#1 := by
        rw [StableHlo.Predicate.cmpi_eq_iff]
        subst hc
        apply BitVec.eq_of_toNat_eq
        rw [BitVec.toNat_ofNat]
        show (lw (ix2 r (0 : Fin 1))).toNat % 2 ^ 32 = _
        exact Nat.mod_eq_of_lt (by omega)
      rw [h1, select_one]
    · rw [if_neg hc]
      have h0 : ¬ IntOp.cmpi .eq (BitVec.ofNat 32 c.val) (lw (ix2 r (0 : Fin 1))) = 1#1 := by
        rw [StableHlo.Predicate.cmpi_eq_iff]
        intro h
        apply hc
        apply Fin.ext
        show c.val = (lw (ix2 r (0 : Fin 1))).toNat
        rw [← h, BitVec.toNat_ofNat]
        exact (Nat.mod_eq_of_lt (by have := c.isLt; omega)).symm
      rw [eq_zero_of_ne_one h0, select_zero]
  rw [Finset.sum_congr rfl fun c _ => hterm c, Finset.sum_ite_eq', if_pos (Finset.mem_univ _)]

/-- A class index whose value is below 1000 passes both signed tests, so its row is kept. -/
theorem validV_apply (lw : Vec Ideal S512x1 .i32) (r : Fin 512) (hl : (lw (ix2 r (0 : Fin 1))).toNat < 1000) :
    validV (F := Ideal) lw (ix2 r (0 : Fin 1)) = 1#1 := by
  show IntOp.andi (IntOp.cmpi .sge (classV (F := Ideal) lw (ix2 r (0 : Fin 1))) 0#32)
    (IntOp.cmpi .slt (classV (F := Ideal) lw (ix2 r (0 : Fin 1))) 1000#32) = 1#1
  rw [classV_apply]
  have h1 : IntOp.cmpi .sge (lw (ix2 r (0 : Fin 1))) 0#32 = 1#1 :=
    (StableHlo.Predicate.sge_iff_toNat (by omega) (by decide)).mpr (by rw [BitVec.toNat_ofNat]; omega)
  have h2 : IntOp.cmpi .slt (lw (ix2 r (0 : Fin 1))) 1000#32 = 1#1 :=
    (StableHlo.Predicate.slt_iff_toNat (by omega) (by decide)).mpr (by rw [BitVec.toNat_ofNat]; omega)
  rw [h1, h2]
  decide

/-- On the extended reals, with every class index of the chunk in range, the chunk's total (at its one index) is
    the sum over the chunk's rows of the row's cross-entropy loss. -/
theorem chunkLoss_apply (x : Vec Ideal S512x1000 .f32) (lw : Vec Ideal S512x1 .i32)
    (hl : ∀ r : Fin 512, (lw (ix2 r (0 : Fin 1))).toNat < 1000) (i : S1x1.Idx) :
    chunkLoss (F := Ideal) x lw i
      = ∑ r : Fin 512, CrossEntropy.loss (fun c : Fin 1000 => x (ix2 r c)) ⟨(lw (ix2 r (0 : Fin 1))).toNat, hl r⟩ := by
  rw [chunkLoss_eq]
  refine (shapeCast_1_11_apply _ _ i).trans ((sumAxis0_apply _ _ _ _ _ (0 : Fin 1)).trans ?_)
  refine Finset.sum_congr rfl fun r _ => ?_
  rw [select_apply, validV_apply lw r (hl r), select_one]
  show lseV (F := Ideal) x (ix2 r (0 : Fin 1)) - pickedV (F := Ideal) x lw (ix2 r (0 : Fin 1)) = _
  rw [lseV_apply, pickedV_apply x lw r 0 (hl r)]
  rfl

end Cert.KernelIdeal.XEnt

end
-- ==== Proof.TileValue.lean ====
/-
  The loss of a tile of 2048 rows, on the extended reals.

  The tile's total adds to a zero, in order, the totals of its four chunks of 512 rows; each chunk's total is the sum
  over its rows of the row's cross-entropy loss.  Row r of chunk k is row 512 k + r of the tile, so the tile's total
  is the sum over its 2048 rows.
-/
import proofs.«422560_j42021960024720_3_alg».proof.Proof.TileLoss
import proofs.«422560_j42021960024720_3_alg».proof.Proof.ChunkLoss
import proofs.«422560_j42021960024720_3_alg».proof.Proof.LibBlockSum
import Idealize.ShloMosaic.PureOps.Ideal.Laws

noncomputable section

namespace Cert.KernelIdeal.XEnt

open Idealize.ShloMosaic Idealize.ShloMosaic.ValueIdx
open Cert.KernelIdeal Cert.KernelIdeal.Gen

/-- The loss of a row against a class given as a number below 1000 depends only on the row and the number. -/
theorem loss_congr {x x' : Fin 1000 → EReal} {n n' : ℕ} (hx : x = x') (hn : n = n') (h : n < 1000) (h' : n' < 1000) :
    CrossEntropy.loss x ⟨n, h⟩ = CrossEntropy.loss x' ⟨n', h'⟩ := by
  subst hx hn; rfl

/-- Row r, column c of the chunk of logits that starts at row o of the tile is row o + r, column c of the tile: the
    chunk is read at unit stride from offset (o, 0), so its coordinate (r, c) is (o + 1·r, 0 + 1·c). -/
theorem chunkRows_apply (x0 : Vec Ideal S2048x1000 .f32) (o : Nat)
    (h : ∀ a, (![o, 0] : Fin 2 → Nat) a + (![512, 1000] : Fin 2 → Nat) a ≤ S2048x1000.size a)
    (r : Fin 512) (c : Fin 1000) (t : Fin 2048) (ht : t.val = o + r.val) :
    chunkRows x0 o h (ix2 r c) = x0 (ix2 t c) := by
  refine congrArg x0 (funext fun a => Fin.ext ?_)
  match a with
  | ⟨0, _⟩ => show o + 1 * r.val = t.val; omega
  | ⟨1, _⟩ => show 0 + 1 * c.val = c.val; omega

/-- The class index of row r of that chunk is the class index of row o + r of the tile. -/
theorem chunkLabels_apply (x1 : Vec Ideal S2048x1 .i32) (o : Nat)
    (g : ∀ a, (![o, 0] : Fin 2 → Nat) a + (![512, 1] : Fin 2 → Nat) a ≤ S2048x1.size a)
    (r : Fin 512) (t : Fin 2048) (ht : t.val = o + r.val) :
    chunkLabels x1 o g (ix2 r (0 : Fin 1)) = x1 (ix2 t (0 : Fin 1)) := by
  refine congrArg x1 (funext fun a => Fin.ext ?_)
  match a with
  | ⟨0, _⟩ => show o + 1 * r.val = t.val; omega
  | ⟨1, _⟩ => show 0 + 1 * 0 = 0; omega

/-- With every class index of the tile in range, the total of the chunk that starts at row o = 512 k is the sum, over
    r below 512, of the loss of row 512 k + r of the tile. -/
theorem chunk_total (x0 : Vec Ideal S2048x1000 .f32) (x1 : Vec Ideal S2048x1 .i32)
    (hl : ∀ r : Fin 2048, (x1 (ix2 r (0 : Fin 1))).toNat < 1000) (k : Fin 4) (o : Nat) (ho : o = k.val * 512)
    (h : ∀ a, (![o, 0] : Fin 2 → Nat) a + (![512, 1000] : Fin 2 → Nat) a ≤ S2048x1000.size a)
    (g : ∀ a, (![o, 0] : Fin 2 → Nat) a + (![512, 1] : Fin 2 → Nat) a ≤ S2048x1.size a) :
    chunkLoss (F := Ideal) (chunkRows x0 o h) (chunkLabels x1 o g) (ix2 (0 : Fin 1) (0 : Fin 1))
      = ∑ r : Fin 512, CrossEntropy.loss (fun c : Fin 1000 => x0 (ix2 (Cert.BlockSum.pos 4 512 rfl k r) c))
          ⟨(x1 (ix2 (Cert.BlockSum.pos 4 512 rfl k r) (0 : Fin 1))).toNat, hl _⟩ := by
  have hpos : ∀ r : Fin 512, (Cert.BlockSum.pos 4 512 (rfl : 2048 = 4 * 512) k r).val = o + r.val := fun r => by
    rw [Cert.BlockSum.pos_val, ho]
  have hlab : ∀ r : Fin 512,
      chunkLabels x1 o g (ix2 r (0 : Fin 1)) = x1 (ix2 (Cert.BlockSum.pos 4 512 rfl k r) (0 : Fin 1)) :=
    fun r => chunkLabels_apply x1 o g r _ (hpos r)
  rw [chunkLoss_apply _ _ (fun r => by rw [hlab r]; exact hl _)]
  exact Finset.sum_congr rfl fun r _ =>
    loss_congr (funext fun c => chunkRows_apply x0 o h r c _ (hpos r)) (congrArg BitVec.toNat (hlab r)) _ _

/-- With every class index of the tile in range, the tile's total (at its one index) is the sum over the tile's 2048
    rows of the row's cross-entropy loss. -/
theorem tileLoss_apply (x0 : Vec Ideal S2048x1000 .f32) (x1 : Vec Ideal S2048x1 .i32)
    (hl : ∀ r : Fin 2048, (x1 (ix2 r (0 : Fin 1))).toNat < 1000) :
    tileLoss (F := Ideal) x0 x1 (ix2 (0 : Fin 1) (0 : Fin 1))
      = ∑ r : Fin 2048, CrossEntropy.loss (fun c : Fin 1000 => x0 (ix2 r c)) ⟨(x1 (ix2 r (0 : Fin 1))).toNat, hl r⟩ := by
  -- The 2048 rows are four blocks of 512: row 512 k + r is row r of block k.
  refine Eq.trans ?_ ((Cert.BlockSum.sum_blocks 4 512 rfl _).trans (Fin.sum_univ_four _)).symm
  -- The total is 0 plus the four chunks' totals, and chunk k's total is block k's sum.
  unfold tileLoss
  rw [addf_apply, addf_apply, addf_apply, addf_apply, broadcast_apply,
    chunk_total x0 x1 hl 0 0 rfl, chunk_total x0 x1 hl 1 512 rfl, chunk_total x0 x1 hl 2 1024 rfl,
    chunk_total x0 x1 hl 3 1536 rfl,
    show Scalar.ofBits (F := Ideal) .f32 0x00000000#32 = (0 : EReal) from Ideal.ofBits_zero_f32, zero_add]

end Cert.KernelIdeal.XEnt

end
-- ==== Proof.BlockRead.lean ====
/-
  The tiles the grid points read, in terms of the program's two arguments.

  Grid point t (of 128) reads rows 2048 t … 2048 t + 2047 of the logits, all 1000 columns, and the same rows of the
  column of class indices; that column is the argument vector of class indices reshaped from [262144] to [262144, 1]
  by the one line of the program before the region.
-/
import proofs.«422560_j42021960024720_3_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.XEnt

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The index maps of the two input windows, decided once over the grid: at point t the block of rows is block t
    and the block of columns is block 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `r` of the tile at grid point `t` is row `2048 t + r` of the logits. -/
theorem xblk_apply (c : Dev nD) (t : Fin cfg0.N) (r : Fin 2048) (cc : Fin 1000) :
    (iblk m c 0 t : Vec F S2048x1000 .f32) (ix2 r cc)
      = m ((c.tc : Thread nD τ).loc main_arg0)
          (ix2 (⟨2048 * t.val + r.val, by have hN : cfg0.N = 128 := N_0; have := t.isLt; have := r.isLt; omega⟩ : Fin 262144) cc) := by
  have hi := idx_in t
  unfold iblk
  rw [View.read_apply]
  show V m c main_arg0 _ = m (c.tc.loc main_arg0) _
  rw [V_main_arg0 m c]
  congr 1
  funext a
  apply Fin.ext
  match a with
  | ⟨0, _⟩ => show win0_0.index t 0 * 2048 + 1 * r.val = 2048 * t.val + r.val; rw [hi.1]; omega
  | ⟨1, _⟩ => show win0_0.index t 1 * 1000 + 1 * cc.val = cc.val; rw [hi.2.1]; omega

/-- The column of class indices the region finds is the argument vector reshaped from [262144] to [262144, 1]: the
    one line of the program before the region wrote it. -/
theorem V_main_v0 (c : Dev nD) :
    (V m c main_v0 : S262144x1.Idx → Elt F .i32)
      = shapeCast S262144x1 (m ((c.tc : Thread nD τ).loc main_arg1)) shapeCasts_S262144_S262144x1 := by
  dsimp only [Gen.V, Gen.V0]
  simp only [hostOps0, List.flatten_cons, List.flatten_nil, List.append_nil]
  after_results
  rfl

/-- The class index of that row is entry `2048 t + r` of the vector of class indices. -/
theorem lblk_apply (c : Dev nD) (t : Fin cfg0.N) (r : Fin 2048) :
    (iblk m c 1 t : Vec F S2048x1 .i32) (ix2 r (0 : Fin 1))
      = m ((c.tc : Thread nD τ).loc main_arg1)
          (ix1 (⟨2048 * t.val + r.val, by have hN : cfg0.N = 128 := N_0; have := t.isLt; have := r.isLt; omega⟩ : Fin 262144)) := by
  have hi := idx_in t
  unfold iblk
  rw [View.read_apply]
  show V m c main_v0 _ = m (c.tc.loc main_arg1) _
  rw [V_main_v0 m c]
  refine shapeCast_apply _ shapeCasts_S262144_S262144x1 _ _ ?_
  rw [Shape.rowMajor_val_one, Shape.rowMajor_val_two]
  show 2048 * t.val + r.val = (win0_1.index t 0 * 2048 + 1 * r.val) * 1 + (win0_1.index t 1 * 1 + 1 * 0)
  rw [hi.2.2.1, hi.2.2.2]
  omega

end Cert.KernelIdeal.XEnt

end
-- ==== Proof.KernelTotal.lean ====
/-
  The kernel's result as one sum over all rows.

  Grid point t = 64 p + k reads rows 2048 t … 2048 t + 2047, so the 2 × 64 tile losses, each a sum over 2048 rows, add
  up to the sum over all 262144 = 2 · 64 · 2048 rows of the row's cross-entropy loss: a re-indexing of a finite sum in
  a commutative monoid (the extended reals under addition), first by tile, then by partition.
-/
import proofs.«422560_j42021960024720_3_alg».proof.Proof.KernelValue
import proofs.«422560_j42021960024720_3_alg».proof.Proof.TileValue
import proofs.«422560_j42021960024720_3_alg».proof.Proof.BlockRead

noncomputable section

namespace Cert.KernelIdeal.XEnt

open Idealize.ShloMosaic Idealize.ShloMosaic.TcCoe Idealize.SL.Sem Idealize.ShloMosaic.ValueIdx
open Cert.KernelIdeal Cert.KernelIdeal.Gen

/-- The cross-entropy loss of row `i` of the logits `X` against entry `i` of the class indices `Lw`. -/
def rowLoss (X : S262144x1000.Idx → EReal) (Lw : S262144.Idx → BitVec 32)
    (hl : ∀ i : Fin 262144, (Lw (ix1 i)).toNat < 1000) (i : Fin 262144) : EReal :=
  CrossEntropy.loss (fun cc : Fin 1000 => X (ix2 i cc)) ⟨(Lw (ix1 i)).toNat, hl i⟩

variable (m : (ℓ : Loc nD τ sig) → Buf (Elt Ideal) ℓ)

/-- Row `2048 t + r`, among all rows. -/
def rowOf (t : Fin cfg0.N) (r : Fin 2048) : Fin 262144 :=
  ⟨2048 * t.val + r.val, by have hN : cfg0.N = 128 := N_0; have := t.isLt; have := r.isLt; omega⟩

/-- The tile loss at grid point `t` is the sum of the losses of the 2048 rows the point reads. -/
theorem tileAt_eq (c : Dev nD) (t : Fin cfg0.N)
    (hl : ∀ i : Fin 262144, (m ((c.tc : Thread nD τ).loc main_arg1) (ix1 i)).toNat < 1000) :
    tileAt m c t = ∑ r : Fin 2048, rowLoss (m ((c.tc : Thread nD τ).loc main_arg0)) (m ((c.tc : Thread nD τ).loc main_arg1)) hl (rowOf t r) := by
  unfold tileAt
  rw [tileLoss_apply (xblk m c t) (lblk m c t)
    (fun r => lt_of_eq_of_lt (congrArg BitVec.toNat (lblk_apply m c t r)) (hl (rowOf t r)))]
  refine Finset.sum_congr rfl fun r _ => ?_
  unfold rowLoss
  exact loss_congr (funext fun cc => xblk_apply m c t r cc) (congrArg BitVec.toNat (lblk_apply m c t r)) _ _

/-- The kernel's result is the sum over all rows of the row's loss, divided by the program's constant. -/
theorem kernelResult_eq (c : Dev nD)
    (hl : ∀ i : Fin 262144, (m ((c.tc : Thread nD τ).loc main_arg1) (ix1 i)).toNat < 1000) :
    kernelResult m c = fun _ =>
      Ideal.div (∑ i : Fin 262144, rowLoss (m ((c.tc : Thread nD τ).loc main_arg0)) (m ((c.tc : Thread nD τ).loc main_arg1)) hl i)
        (Ideal.ofBits .f32 0x48800000#32) := by
  unfold kernelResult
  funext _
  refine congrArg₂ Ideal.div ?_ rfl
  rw [Ideal.ofBits_zero_f32, zero_add,
    Cert.BlockSum.sum_blocks 128 2048 (by norm_num) (rowLoss (m ((c.tc : Thread nD τ).loc main_arg0)) (m ((c.tc : Thread nD τ).loc main_arg1)) hl),
    Cert.BlockSum.sum_blocks 2 64 (by norm_num)
      (fun t : Fin 128 => ∑ r : Fin 2048, rowLoss (m ((c.tc : Thread nD τ).loc main_arg0)) (m ((c.tc : Thread nD τ).loc main_arg1)) hl
        (Cert.BlockSum.pos 128 2048 (by norm_num) t r))]
  refine Finset.sum_congr rfl fun p _ => ?_
  show ∑ k : Fin 64, tileAt m c (pt p k.val k.isLt) = _
  refine Finset.sum_congr rfl fun k _ => ?_
  rw [tileAt_eq m c _ hl]
  refine Finset.sum_congr rfl fun r _ => ?_
  refine congrArg _ (Fin.ext ?_)
  show 2048 * (64 * p.val + k.val) + r.val = (p.val * 64 + k.val) * 2048 + r.val
  ring

end Cert.KernelIdeal.XEnt

end
-- ==== Proof.lean ====
/-
  The certificate of the cross-entropy kernel against its jnp reference.

  Both programs take logits x of shape [262144, 1000] and class indices l of shape [262144].  For each row the
  kernel computes log (∑ exp (x - M)) - (x_l - M), with M the row's maximum, and adds these up over 2 partitions of 64
  tiles of 4 chunks of 512 rows; the reference computes log_softmax, picks column l in each row, sums the picked
  entries and negates.  The two results, each divided by the same constant 262144, are the same extended real once
  every logit is a real number and every class index lies in [0, 1000): each row's two terms are then real numbers
  and negatives of one another, and a finite sum of real numbers can be regrouped and negated term by term.
  The three frame claims are the generated frame of each kernel program and the reference's run with its result
  dropped; the idealization rewrote nothing, so the preservation claim is trivial.
-/
import proofs.«422560_j42021960024720_3_alg».proof.Defs
import proofs.«422560_j42021960024720_3_alg».proof.Proof.Gen.Kernel
import proofs.«422560_j42021960024720_3_alg».proof.Proof.Gen.Kernel.Frame
import proofs.«422560_j42021960024720_3_alg».proof.Proof.Gen.KernelIdeal
import proofs.«422560_j42021960024720_3_alg».proof.Proof.Gen.KernelIdeal.Frame
import proofs.«422560_j42021960024720_3_alg».proof.Proof.Gen.ReferenceIdeal
import proofs.«422560_j42021960024720_3_alg».proof.Proof.Gen.Pre_finite_inputs
import proofs.«422560_j42021960024720_3_alg».proof.Proof.RefRun
import proofs.«422560_j42021960024720_3_alg».proof.Proof.RefRead
import proofs.«422560_j42021960024720_3_alg».proof.Proof.RefPicked
import proofs.«422560_j42021960024720_3_alg».proof.Proof.PreRead
import proofs.«422560_j42021960024720_3_alg».proof.Proof.KernelTotal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the logits and the class indices, under the precondition, the kernel program ends
    with its result at the sum over all rows of the row's loss divided by 262144, and the reference with its result
    at the negated sum of the rows' log-probabilities divided by 262144: the same extended real. -/
theorem algebraic : Cert.algebraic_KernelIdeal_ReferenceIdeal := by
  intro m ρ m' ρ' hpre hagree
  have hdec := fun c => Cert.Pre_finite_inputs.Decode.of_pre _ _ (hpre c)
  refine ⟨fun c => Cert.KernelIdeal.XEnt.kernelResult m c, Cert.KernelIdeal.XEnt.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.XEnt.kernelResult m c
  rw [Cert.ReferenceIdeal.Read.val_main_v6_eq, (hagree c).1, (hagree c).2,
    Cert.KernelIdeal.XEnt.kernelResult_eq m c (hdec c).2]
  funext j
  rw [Cert.ReferenceIdeal.Picked.result_eq _ _ (hdec c).2 j]
  refine congrArg₂ Ideal.div ?_ rfl
  rw [Ideal.ofBits_zero_f32, zero_add]
  exact CrossEntropy.neg_sum_picked Finset.univ (by norm_num) _ _ (fun i cc => (hdec c).1 i cc)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
